-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S1024x128 : Shape := ⟨2, ![1024, 128]⟩
abbrev S128x1024 : Shape := ⟨2, ![128, 1024]⟩
abbrev S1024x1024 : Shape := ⟨2, ![1024, 1024]⟩
abbrev S1024x1 : Shape := ⟨2, ![1024, 1]⟩
abbrev S1x1024 : Shape := ⟨2, ![1, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 28
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S8192x128, .bf16⟩
  | .hbm, ⟨23, _⟩ => ⟨S8192x128, .bf16⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1x1, .f32⟩
  | .local _ .vmem, ⟨5, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c7_i32_13 : BitVec 32 := 7#32
  let v38 : BitVec 1 := Scalar.cmpi .eq arg1 c7_i32_13
  let v39 : BitVec 1 := Scalar.andi v37 v38
  let v40 : BitVec 32 := Scalar.extui v39
  let c0_i32_14 : BitVec 32 := 0#32
  let v41 : BitVec 1 := Scalar.cmpi .ne v40 c0_i32_14
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v10) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S128x8192, .f32⟩
  | .hbm, ⟨23, _⟩ => ⟨S8192x8192, .f32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Pieces.lean ====
/-
  What one grid point leaves in the accumulator and in the output's staging buffer, for the idealized kernel.

  At every point the body stores into the one-element accumulator ONE value: `k0_pay2` of the point's coordinates, its
  two input blocks and what the accumulator held — at the first point what the reset just stored there (`k0_pay1`),
  at the other points what the point before left. At the last point it then copies the accumulator, as just stored,
  into the output's staging buffer. Every load and store is through the whole buffer (the rectangle of the buffer's
  own extents at offset zero), so each buffer reads back as the payload of the last store into it.
-/
import proofs.«134980_j16544214024588_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- Offset zero on both axes. -/
theorem hz : (![0, 0] : Fin 2 → Nat) = fun _ => 0 := funext fun a => by fin_cases a <;> rfl

/-- The first point (reset, then accumulate): the accumulator ends at the payload over the reset's value. -/
theorem scratch_A (c : Dev nD) (i : grid0.Coords) (a2 : Memref sig .tc .vmem S1024x128 .bf16) (h2 : a2.IsWhole)
    (a3 : Memref sig .tc .vmem S1024x128 .bf16) (h3 : a3.IsWhole) (a4 : Memref sig .tc .vmem S1x1 .f32) (h4 : a4.IsWhole)
    (a5 : Memref sig .tc .vmem S1x1 .f32) (h5 : a5.IsWhole) (hc0 : cond0_0 i) (hc1 : ¬cond0_1 i)
    (x0 x1 : Vec F S1024x128 .bf16) :
    sout0_A_0 c i a2 h2 a3 h3 a4 h4 a5 h5 hc0 hc1 x0 x1 = k0_pay2 i x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1024x128) hz]

/-- A middle point: the accumulator ends at the payload over what the point before left. -/
theorem scratch_B (c : Dev nD) (i : grid0.Coords) (a2 : Memref sig .tc .vmem S1024x128 .bf16) (h2 : a2.IsWhole)
    (a3 : Memref sig .tc .vmem S1024x128 .bf16) (h3 : a3.IsWhole) (a4 : Memref sig .tc .vmem S1x1 .f32) (h4 : a4.IsWhole)
    (a5 : Memref sig .tc .vmem S1x1 .f32) (h5 : a5.IsWhole) (hc0 : ¬cond0_0 i) (hc1 : ¬cond0_1 i)
    (x0 x1 : Vec F S1024x128 .bf16) (xs : Vec F S1x1 .f32) :
    sout0_B_0 c i a2 h2 a3 h3 a4 h4 a5 h5 hc0 hc1 x0 x1 xs = k0_pay2 i x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1x1) hz]
  simp only [View.readAt_eq_ld, h2.read_unread, h3.read_unread, h5.read_unread, View.ld_unit_zero (S := S1024x128) hz,
    View.ld_unit_zero (S := S1x1) hz]

/-- The last point: the accumulator likewise, -/
theorem scratch_C (c : Dev nD) (i : grid0.Coords) (a2 : Memref sig .tc .vmem S1024x128 .bf16) (h2 : a2.IsWhole)
    (a3 : Memref sig .tc .vmem S1024x128 .bf16) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 x1 : Vec F S1024x128 .bf16) (xs : Vec F S1x1 .f32) :
    sout0_C_0 c i a2 h2 a3 h3 a4 h4 a5 h5 hc0 hc1 x0 x1 xs = k0_pay2 i x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1x1) hz]
  simp only [View.readAt_eq_ld, h2.read_unread, h3.read_unread, h5.read_unread, View.ld_unit_zero (S := S1024x128) hz,
    View.ld_unit_zero (S := S1x1) hz]

/-- and the output's staging buffer holds the accumulator's new value, read back after the store. -/
theorem out_C (c : Dev nD) (i : grid0.Coords) (a2 : Memref sig .tc .vmem S1024x128 .bf16) (h2 : a2.IsWhole)
    (a3 : Memref sig .tc .vmem S1024x128 .bf16) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 x1 : Vec F S1024x128 .bf16) (xs : Vec F S1x1 .f32) :
    out0_C_2 c i a2 h2 a3 h3 a4 h4 a5 h5 hc0 hc1 x0 x1 xs = k0_pay2 i x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1) hz, View.readCov_unit_zero (S := S1x1) _ hz]
  simp only [View.readAt_eq_ld, h2.read_unread, h3.read_unread, h5.read_unread, View.ld_unit_zero (S := S1024x128) hz,
    View.ld_unit_zero (S := S1x1) hz]

end Cert.KernelIdeal.Acc

end
-- ==== Proof.Tiles.lean ====
/-
  A sum over the 8192 × 8192 positions of a square, cut into an 8 × 8 grid of tiles of 1024 × 1024 positions.

  Position `x` of run `q` (of 8 runs of 1024) is `q * 1024 + x`; every one of the 8192 positions is such a position
  for exactly one pair (q, x) (quotient and remainder by 1024). So a sum over the positions is the sum, over the runs, of
  the sums over each run; done on both axes, and the two middle sums exchanged, a double sum over the square is the sum
  over the 64 tiles (i, j) of the double sum over tile (i, j). The tiles are then numbered row-major, tile `t` being
  tile (t / 8, t % 8). All of this holds in any commutative additive monoid: in particular on the extended reals,
  whose addition is commutative and associative whatever infinities occur, with no finiteness assumed.
-/
import Mathlib.Data.Fintype.BigOperators
import Mathlib.Logic.Equiv.Fin.Basic

open scoped BigOperators

namespace Cert.Tiles

variable {M : Type*} [AddCommMonoid M]

/-- Position `x` of run `q`: `q * 1024 + x`. -/
def pos (q : Fin 8) (x : Fin 1024) : Fin 8192 := ⟨q.val * 1024 + x.val, by have := q.isLt; have := x.isLt; omega⟩

@[simp] theorem pos_val (q : Fin 8) (x : Fin 1024) : (pos q x).val = q.val * 1024 + x.val := rfl

/-- Every position is position `R % 1024` of run `R / 1024`, and of no other. -/
def posEquiv : Fin 8 × Fin 1024 ≃ Fin 8192 where
  toFun p := pos p.1 p.2
  invFun R := (⟨R.val / 1024, by have := R.isLt; omega⟩, ⟨R.val % 1024, Nat.mod_lt _ (by decide)⟩)
  left_inv := by
    rintro ⟨q, x⟩
    have := q.isLt; have := x.isLt
    refine Prod.ext (Fin.ext ?_) (Fin.ext ?_)
    · show (q.val * 1024 + x.val) / 1024 = q.val
      omega
    · show (q.val * 1024 + x.val) % 1024 = x.val
      omega
  right_inv := by
    intro R
    refine Fin.ext ?_
    show R.val / 1024 * 1024 + R.val % 1024 = R.val
    omega

/-- A sum over the positions, run by run. -/
theorem sum_runs (g : Fin 8192 → M) : ∑ R, g R = ∑ q : Fin 8, ∑ x : Fin 1024, g (pos q x) := by
  rw [← Equiv.sum_comp posEquiv g, Fintype.sum_prod_type]
  rfl

/-- Tile `t` of the grid numbered row-major is tile (t / 8, t % 8). -/
def tileRow (t : Fin 64) : Fin 8 := ⟨t.val / 8, by have := t.isLt; omega⟩
def tileCol (t : Fin 64) : Fin 8 := ⟨t.val % 8, Nat.mod_lt _ (by decide)⟩

def gridEquiv : Fin 8 × Fin 8 ≃ Fin 64 where
  toFun p := ⟨p.1.val * 8 + p.2.val, by have := p.1.isLt; have := p.2.isLt; omega⟩
  invFun t := (tileRow t, tileCol t)
  left_inv := by
    rintro ⟨i, j⟩
    have := i.isLt; have := j.isLt
    refine Prod.ext (Fin.ext ?_) (Fin.ext ?_)
    · show (i.val * 8 + j.val) / 8 = i.val
      omega
    · show (i.val * 8 + j.val) % 8 = j.val
      omega
  right_inv := by
    intro t
    refine Fin.ext ?_
    show t.val / 8 * 8 + t.val % 8 = t.val
    omega

/-- A sum over the 64 tiles in row-major order is the double sum over the grid's rows and columns. -/
theorem sum_grid (h : Fin 8 → Fin 8 → M) : ∑ t : Fin 64, h (tileRow t) (tileCol t) = ∑ i : Fin 8, ∑ j : Fin 8, h i j := by
  rw [← Equiv.sum_comp gridEquiv (fun t => h (tileRow t) (tileCol t)), Fintype.sum_prod_type]
  refine Finset.sum_congr rfl fun i _ => Finset.sum_congr rfl fun j _ => ?_
  have e := gridEquiv.left_inv (i, j)
  have e1 : tileRow (gridEquiv (i, j)) = i := congrArg Prod.fst e
  have e2 : tileCol (gridEquiv (i, j)) = j := congrArg Prod.snd e
  rw [e1, e2]

/-- The double sum over tile (i, j) of a function of the square's positions. -/
def tileSum (f : Fin 8192 → Fin 8192 → M) (i j : Fin 8) : M := ∑ r : Fin 1024, ∑ c : Fin 1024, f (pos i r) (pos j c)

/-- THE LAW: the sum over the 64 tiles of each tile's double sum is the double sum over the whole square. -/
theorem sum_tiles (f : Fin 8192 → Fin 8192 → M) :
    ∑ t : Fin 64, tileSum f (tileRow t) (tileCol t) = ∑ R, ∑ C, f R C := by
  rw [sum_grid (tileSum f), sum_runs fun R => ∑ C, f R C]
  refine Finset.sum_congr rfl fun i _ => ?_
  unfold tileSum
  rw [Finset.sum_comm]
  refine Finset.sum_congr rfl fun r _ => ?_
  exact (sum_runs fun C => f (pos i r) C).symm

end Cert.Tiles
-- ==== Proof.Loss.lean ====
/-
  THE SPECIFICATION. For two arrays `a`, `p` of 8192 rows of 128 extended reals, the pairwise loss

      cos R C   = Σ_k a[R, k] · p[C, k]
      loss R C  = 1 − cos R C        if R = C
                = max (cos R C) 0    otherwise
      mean      = (0 + Σ_R Σ_C loss R C) / 2^26

  with the constants 1, 0 and 2^26 kept as the float patterns both programs print (the same pattern on both sides
  is never evaluated), and the quotient the extended reals' division. Both programs compute `mean` of the same two
  arrays (the row-normalised inputs); they differ in how the diagonal is recognised and in how the double sum is
  grouped, which is what the lemmas below and the tile law are for.

  The diagonal: the reference compares a row counter with a column counter as 32-bit words; a tile of the kernel
  compares `i·1024 + r` with `j·1024 + c`, computed in 32-bit words. All of these numbers are below 8192, far
  below 2^32, so the words are equal exactly when the positions are.
-/
import Idealize.ShloMosaic.PureOps.Ideal
import Idealize.ShloMosaic.PureOps.Ideal.Laws
import Idealize.ShloMosaic.Lib.ValueIdx
import Idealize.ShloMosaic.Lib.StableHlo.Predicate
import proofs.«134980_j16544214024588_1_alg».proof.Proof.Tiles

noncomputable section

namespace Cert.Loss

open Idealize.ShloMosaic Idealize.ShloMosaic.ValueIdx

/-- An array of 8192 rows of 128 extended reals. -/
abbrev Rows : Type := (⟨2, ![8192, 128]⟩ : Shape).Idx → EReal

/-- The float patterns of 1, 0 and 2^26, read at the ideal instance. -/
abbrev one : EReal := Ideal.ofBits .f32 0x3F800000#32
abbrev zero : EReal := Ideal.ofBits .f32 0x00000000#32
abbrev count : EReal := Ideal.ofBits .f32 0x4C800000#32

/-- Row `R` of `a` against row `C` of `p`. -/
def cosAt (a p : Rows) (R C : Fin 8192) : EReal := ∑ k : Fin 128, a (ix2 R k) * p (ix2 C k)

/-- The loss of the pair (R, C): on the diagonal `1 − cos`, off it `max cos 0`. -/
def lossAt (a p : Rows) (R C : Fin 8192) : EReal :=
  if R = C then one - cosAt a p R C else max (cosAt a p R C) zero

/-- The sum of the loss over all pairs. -/
def total (a p : Rows) : EReal := ∑ R, ∑ C, lossAt a p R C

/-- The mean: the total, added to the sum's initial value, over the number of pairs. -/
def mean (a p : Rows) : EReal := Ideal.div (zero + total a p) count

/-- Below 2^32 a number is determined by its 32-bit word. -/
theorem ofNat_inj {x y : ℕ} (hx : x < 2 ^ 32) (hy : y < 2 ^ 32) : BitVec.ofNat 32 x = BitVec.ofNat 32 y ↔ x = y := by
  constructor
  · intro h
    have e := congrArg BitVec.toNat h
    rw [BitVec.toNat_ofNat, BitVec.toNat_ofNat, Nat.mod_eq_of_lt hx, Nat.mod_eq_of_lt hy] at e
    exact e
  · rintro rfl; rfl

/-- The reference's diagonal test: the row counter (plus the word 0) equals the column counter exactly on the diagonal. -/
theorem refMask (R C : Fin 8192) :
    IntOp.cmpi .eq (IntOp.addi (BitVec.ofNat 32 R.val) 0#32) (BitVec.ofNat 32 C.val) = 1#1 ↔ R = C := by
  have hR := R.isLt; have hC := C.isLt
  rw [StableHlo.Predicate.cmpi_eq_iff]
  unfold IntOp.addi
  rw [BitVec.add_zero, ofNat_inj (by omega) (by omega)]
  exact Fin.val_inj

/-- A tile's diagonal test: in tile (i, j) the words `i·1024 + r` and `j·1024 + c` are equal exactly when position
    `r` of run `i` is position `c` of run `j`. -/
theorem tileMask (i j : Fin 8) (r c : Fin 1024) :
    IntOp.cmpi .eq (IntOp.addi (Scalar.muli (BitVec.ofNat 32 i.val) 1024#32) (BitVec.ofNat 32 r.val))
        (IntOp.addi (Scalar.muli (BitVec.ofNat 32 j.val) 1024#32) (BitVec.ofNat 32 c.val)) = 1#1
      ↔ Tiles.pos i r = Tiles.pos j c := by
  have hi := i.isLt; have hj := j.isLt; have hr := r.isLt; have hc := c.isLt
  rw [StableHlo.Predicate.cmpi_eq_iff]
  unfold IntOp.addi Scalar.muli IntOp.muli
  rw [show (1024#32 : BitVec 32) = BitVec.ofNat 32 1024 from rfl, ← BitVec.ofNat_mul, ← BitVec.ofNat_mul,
    ← BitVec.ofNat_add, ← BitVec.ofNat_add, ofNat_inj (by omega) (by omega)]
  constructor
  · intro h; exact Fin.ext h
  · intro h; exact congrArg Fin.val h

/-- `arith.select` on a decided one-bit word. -/
theorem select_iff {α : Type} {b : BitVec 1} {P : Prop} [Decidable P] (h : b = 1#1 ↔ P) (x y : α) :
    Scalar.select b x y = if P then x else y := by
  by_cases hP : P
  · rw [if_pos hP, h.mpr hP]; exact select_one x y
  · rw [if_neg hP, eq_zero_of_ne_one fun e => hP (h.mp e)]; exact select_zero x y

/-- THE TILE LAW for the loss: the sum over the 64 tiles, in the grid's row-major order, of each tile's double sum
    of the loss is the total. -/
theorem sum_tiles (a p : Rows) :
    ∑ t : Fin 64, Tiles.tileSum (lossAt a p) (Tiles.tileRow t) (Tiles.tileCol t) = total a p :=
  Tiles.sum_tiles (lossAt a p)

end Cert.Loss

end
-- ==== Proof.Tile.lean ====
/-
  What one grid point adds to the accumulator, at the ideal instance.

  The body's one stored value is the accumulator's previous value plus the tile's sum: with `x0`, `x1` the point's two
  blocks of 1024 rows,

      cos r c  = Σ_k x0[r, k] · x1[c, k]                 (a product with the second block transposed, into zero)
      loss r c = 1 − cos r c       if i·1024 + r = j·1024 + c   (compared as 32-bit words)
               = max (cos r c) 0   otherwise
      added    = Σ_r Σ_c loss r c                       (one reduction of the 1 × 1024 × 1024 view over its two long axes)

  When the blocks are blocks i and j of two arrays of 8192 rows, this is the specification's sum over tile (i, j).
-/
import proofs.«134980_j16544214024588_1_alg».proof.Proof.Gen.KernelIdeal.Skeleton
import proofs.«134980_j16544214024588_1_alg».proof.Proof.Loss
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen

/-! ## The stored value, stage by stage (at any instance) -/

section Stages

variable {F : FTy → Type} [FloatOps F]

/-- The tile's row numbers `i·1024 + r`, as words, one per row. -/
def rowWord (i : grid0.Coords) : IVec S1024x1 32 :=
  addi (broadcast S1024x1 (Scalar.muli (BitVec.ofNat 32 (i 0).val) 1024#32)) (iota .tc S1024x1 32 [0] iota_S1024x1_d0_w32)

/-- The tile's column numbers `j·1024 + c`, as words, one per column. -/
def colWord (i : grid0.Coords) : IVec S1x1024 32 :=
  addi (broadcast S1x1024 (Scalar.muli (BitVec.ofNat 32 (i 1).val) 1024#32)) (iota .tc S1x1024 32 [1] iota_S1x1024_d1_w32)

/-- Where the tile meets the diagonal. -/
def diag (i : grid0.Coords) : IVec S1024x1024 1 :=
  cmpi .eq (broadcastTo S1024x1024 (rowWord i) broadcasts_S1024x1_S1024x1024)
    (broadcastTo S1024x1024 (colWord i) broadcasts_S1x1024_S1024x1024)

/-- The tile of products of rows. -/
def cosTile (x0 x1 : Vec F S1024x128 .bf16) : FVec F S1024x1024 .f32 :=
  matmul dot_S1024x128_S128x1024_S1024x1024_1_0_0_1_n_n none
    (shapeCast S1024x128 x0 shapeCasts_S1024x128_S1024x128 : FVec F S1024x128 .bf16)
    (transpose S128x1024 [1, 0] (shapeCast S1024x128 x1 shapeCasts_S1024x128_S1024x128 : FVec F S1024x128 .bf16)
      transposes_S1024x128_p1_0_S128x1024)
    (constant S1024x1024 .f32 0x00000000#32)

/-- The tile of losses. -/
def lossTile (i : grid0.Coords) (x0 x1 : Vec F S1024x128 .bf16) : FVec F S1024x1024 .f32 :=
  select (diag i) (subf (broadcast S1024x1024 (Scalar.ofBits .f32 0x3F800000#32)) (cosTile x0 x1))
    (maximumf (cosTile x0 x1) (broadcast S1024x1024 (Scalar.ofBits .f32 0x00000000#32)))

/-- The sum of a tile's entries, as the body takes it. -/
def sumAll (v : FVec F S1024x1024 .f32) : F .f32 :=
  extractAt ![0, 0, 0]
    (shapeCast S1x1x1
      (multiReduction .add [1, 2] S1 (shapeCast S1x1024x1024 v shapeCasts_S1024x1024_S1x1024x1024) 0x00000000#32
        reduces_S1x1024x1024_S1 (.inl rfl) rfl)
      shapeCasts_S1_S1x1x1)
    inpos_S1x1x1_p0_0_0

/-- The body's stored value is the previous value plus the tile's sum. -/
theorem pay2_eq (i : grid0.Coords) (x0 x1 : Vec F S1024x128 .bf16) (xs : Vec F S1x1 .f32) :
    k0_pay2 i x0 x1 xs
      = shapeCast S1x1 (addf xs (broadcast S1x1 (sumAll (lossTile i x0 x1)))) shapeCasts_S1x1_S1x1 := rfl

end Stages

/-! ## The stages read at an index, at the ideal instance -/

/-- A column of 1024 words spread over 1024 columns reads its row's word. -/
theorem spreadCol_apply (v : IVec S1024x1 32) (r c : Fin 1024) :
    broadcastTo S1024x1024 v broadcasts_S1024x1_S1024x1024 (ix2 r c) = v (ix2 r (0 : Fin 1)) :=
  broadcastTo_apply v broadcasts_S1024x1_S1024x1024 (ix2 r c) (ix2 r (0 : Fin 1)) fun ax =>
    match ax with
    | ⟨0, _⟩ => by show r.val = if (1024 : ℕ) = 1 then 0 else r.val; rw [if_neg (by decide)]
    | ⟨1, _⟩ => by show 0 = if (1 : ℕ) = 1 then 0 else c.val; rw [if_pos rfl]

theorem rowWord_apply (i : grid0.Coords) (r : Fin 1024) :
    rowWord i (ix2 r (0 : Fin 1)) = IntOp.addi (Scalar.muli (BitVec.ofNat 32 (i 0).val) 1024#32) (BitVec.ofNat 32 r.val) :=
  congrArg (IntOp.addi (Scalar.muli (BitVec.ofNat 32 (i 0).val) 1024#32))
    (iota_single_apply .tc S1024x1 32 0 iota_S1024x1_d0_w32 (ix2 r (0 : Fin 1)))

theorem colWord_apply (i : grid0.Coords) (c : Fin 1024) :
    colWord i (ix2 (0 : Fin 1) c) = IntOp.addi (Scalar.muli (BitVec.ofNat 32 (i 1).val) 1024#32) (BitVec.ofNat 32 c.val) :=
  congrArg (IntOp.addi (Scalar.muli (BitVec.ofNat 32 (i 1).val) 1024#32))
    (iota_single_apply .tc S1x1024 32 1 iota_S1x1024_d1_w32 (ix2 (0 : Fin 1) c))

/-- The diagonal test at (r, c) compares the row's word with the column's. -/
theorem diag_apply (i : grid0.Coords) (r c : Fin 1024) :
    diag i (ix2 r c)
      = IntOp.cmpi .eq (IntOp.addi (Scalar.muli (BitVec.ofNat 32 (i 0).val) 1024#32) (BitVec.ofNat 32 r.val))
          (IntOp.addi (Scalar.muli (BitVec.ofNat 32 (i 1).val) 1024#32) (BitVec.ofNat 32 c.val)) := by
  show IntOp.cmpi .eq (broadcastTo S1024x1024 (rowWord i) broadcasts_S1024x1_S1024x1024 (ix2 r c))
    (broadcastTo S1024x1024 (colWord i) broadcasts_S1x1024_S1024x1024 (ix2 r c)) = _
  rw [spreadCol_apply, broadcastTo_1b_ab_apply, rowWord_apply, colWord_apply]

/-- The product's operand indices, axis by axis. -/
theorem lhs_0 (j : S1024x1024.Idx) (q : dot_S1024x128_S128x1024_S1024x1024_1_0_0_1_n_n.contr.Idx) :
    (dot_S1024x128_S128x1024_S1024x1024_1_0_0_1_n_n.lhsIdx j q 0).val = (j 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_1 (j : S1024x1024.Idx) (q : dot_S1024x128_S128x1024_S1024x1024_1_0_0_1_n_n.contr.Idx) :
    (dot_S1024x128_S128x1024_S1024x1024_1_0_0_1_n_n.lhsIdx j q 1).val = (q ⟨0, by decide⟩).val :=
  dot_S1024x128_S128x1024_S1024x1024_1_0_0_1_n_n.lhsIdx_val_of_single rfl j q
theorem rhs_0 (j : S1024x1024.Idx) (q : dot_S1024x128_S128x1024_S1024x1024_1_0_0_1_n_n.contr.Idx) :
    (dot_S1024x128_S128x1024_S1024x1024_1_0_0_1_n_n.rhsIdx j q 0).val = (q ⟨0, by decide⟩).val :=
  dot_S1024x128_S128x1024_S1024x1024_1_0_0_1_n_n.rhsIdx_val_of_single rfl j q
theorem rhs_1 (j : S1024x1024.Idx) (q : dot_S1024x128_S128x1024_S1024x1024_1_0_0_1_n_n.contr.Idx) :
    (dot_S1024x128_S128x1024_S1024x1024_1_0_0_1_n_n.rhsIdx j q 1).val = (j 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The tile of products at (r, c): row r of the first block against row c of the second. -/
theorem cosTile_apply (x0 x1 : FVec Ideal S1024x128 .bf16) (r c : Fin 1024) :
    cosTile (F := Ideal) x0 x1 (ix2 r c) = ∑ k : Fin 128, x0 (ix2 r k) * x1 (ix2 c k) := by
  unfold cosTile
  rw [shapeCast_self, shapeCast_self]
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r c) ((contrEquiv1 dot_S1024x128_S128x1024_S1024x1024_1_0_0_1_n_n 128 rfl rfl).symm k) = ix2 r k := funext fun a => Fin.ext (by
    match a with
    | ⟨0, _⟩ => exact lhs_0 _ _
    | ⟨1, _⟩ => exact (lhs_1 _ _).trans hk)
  have er : dot_S1024x128_S128x1024_S1024x1024_1_0_0_1_n_n.rhsIdx (ix2 r c) ((contrEquiv1 dot_S1024x128_S128x1024_S1024x1024_1_0_0_1_n_n 128 rfl rfl).symm k) = ix2 k c := funext fun a => Fin.ext (by
    match a with
    | ⟨0, _⟩ => exact (rhs_0 _ _).trans hk
    | ⟨1, _⟩ => exact rhs_1 _ _)
  rw [el, er, transpose_ix2_apply]

/-- The tile of losses at (r, c), in tile (i0, i1). -/
theorem lossTile_apply (i : grid0.Coords) (i0 i1 : Fin 8) (h0 : (i 0).val = i0.val) (h1 : (i 1).val = i1.val)
    (x0 x1 : FVec Ideal S1024x128 .bf16) (r c : Fin 1024) :
    lossTile (F := Ideal) i x0 x1 (ix2 r c)
      = if Tiles.pos i0 r = Tiles.pos i1 c then Loss.one - ∑ k : Fin 128, x0 (ix2 r k) * x1 (ix2 c k)
        else max (∑ k : Fin 128, x0 (ix2 r k) * x1 (ix2 c k)) Loss.zero := by
  show Scalar.select (diag i (ix2 r c)) (Loss.one - cosTile (F := Ideal) x0 x1 (ix2 r c))
    (max (cosTile (F := Ideal) x0 x1 (ix2 r c)) Loss.zero) = _
  rw [cosTile_apply, diag_apply, h0, h1]
  exact Loss.select_iff (Loss.tileMask i0 i1 r c) _ _

/-- The body's sum of a tile is the double sum of its entries. -/
theorem sumAll_eq (v : FVec Ideal S1024x1024 .f32) :
    sumAll (F := Ideal) v = ∑ r : Fin 1024, ∑ c : Fin 1024, v (ix2 r c) := by
  unfold sumAll extractAt shapeCast
  refine (Ideal.multiReduction_add_total _ _ reduces_S1x1024x1024_S1 (fun b => ?_) (.inl rfl) rfl _).trans ?_
  · match b with
    | ⟨0, _⟩ => rfl
  · exact (Equiv.sum_comp (Shape.reshapeEquiv shapeCasts_S1024x1024_S1x1024x1024) v).trans (sum_idx2 v)

/-- THE POINT'S VALUE: the previous value plus the tile's sum. -/
theorem pay2_apply (i : grid0.Coords) (x0 x1 : FVec Ideal S1024x128 .bf16) (xs : FVec Ideal S1x1 .f32) :
    k0_pay2 (F := Ideal) i x0 x1 xs = fun y => xs y + sumAll (F := Ideal) (lossTile (F := Ideal) i x0 x1) := by
  rw [pay2_eq, shapeCast_self]
  rfl

/-- The reset's value: zero. -/
theorem pay1_apply : (k0_pay1 (F := Ideal) : FVec Ideal S1x1 .f32) = fun _ => Loss.zero := by
  show shapeCast S1x1 (broadcast S1x1 (Scalar.ofBits (F := Ideal) .f32 0x00000000#32)) shapeCasts_S1x1_S1x1 = _
  rw [shapeCast_self]
  rfl

/-- THE TILE: when the two blocks are runs `i0` and `i1` of the rows of `a` and `p`, the tile's sum is the
    specification's sum of the loss over tile (i0, i1). -/
theorem tile_sum (i : grid0.Coords) (i0 i1 : Fin 8) (h0 : (i 0).val = i0.val) (h1 : (i 1).val = i1.val) (a p : Loss.Rows)
    (x0 x1 : FVec Ideal S1024x128 .bf16) (hx0 : ∀ r k, x0 (ix2 r k) = a (ix2 (Tiles.pos i0 r) k))
    (hx1 : ∀ c k, x1 (ix2 c k) = p (ix2 (Tiles.pos i1 c) k)) :
    sumAll (F := Ideal) (lossTile (F := Ideal) i x0 x1) = Tiles.tileSum (Loss.lossAt a p) i0 i1 := by
  rw [sumAll_eq]
  unfold Tiles.tileSum
  refine Finset.sum_congr rfl fun r _ => Finset.sum_congr rfl fun c _ => ?_
  rw [lossTile_apply i i0 i1 h0 h1]
  unfold Loss.lossAt Loss.cosAt
  simp only [hx0, hx1]

end Cert.KernelIdeal.Tile

end
-- ==== Proof.KernelValue.lean ====
/-
  The idealized kernel's run, read as values.

  The grid's 64 points are the tiles (t / 8, t % 8) of the 8192 × 8192 square of pairs, visited row-major. At point t
  the first window's block is run t / 8 of the rows of the normalised second argument (`a`), the second window's block
  run t % 8 of the rows of the normalised first argument (`p`), and the body adds that tile's sum of the loss to the
  one-element accumulator, which the first point resets to 0 beforehand. So after point n the accumulator holds

      0 + Σ_{s ≤ n} (sum of the loss over tile s)

  by induction on n. The last point copies the accumulator into the output's block, the only write-back; the host then
  reshapes the 1 × 1 result and divides by 2^26. By the tile law the sum over all 64 tiles is the sum over all pairs.
-/
import proofs.«134980_j16544214024588_1_alg».proof.Proof.Gen.KernelIdeal.Frame
import proofs.«134980_j16544214024588_1_alg».proof.Proof.Pieces
import proofs.«134980_j16544214024588_1_alg».proof.Proof.Tile
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-! ## The grid: point t is tile (t / 8, t % 8) -/

theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

theorem index0 : ∀ t : Fin cfg0.N, win0_0.index t 0 = t.val / 8 ∧ win0_0.index t 1 = 0 :=
  (by decide +kernel : ∀ t : Fin grid0.N, win0_0.index t 0 = t.val / 8 ∧ win0_0.index t 1 = 0)

theorem index1 : ∀ t : Fin cfg0.N, win0_1.index t 0 = t.val % 8 ∧ win0_1.index t 1 = 0 :=
  (by decide +kernel : ∀ t : Fin grid0.N, win0_1.index t 0 = t.val % 8 ∧ win0_1.index t 1 = 0)

/-- A grid point as one of the 64 tiles. -/
def tile (t : Fin cfg0.N) : Fin 64 := ⟨t.val, lt_of_lt_of_eq t.isLt N_0⟩

/-! ## The two arrays the region finds, and their blocks -/

/-- The normalised second argument, as the region finds it (window 0's array), -/
abbrev aarr (c : Dev nD) : FVec Ideal S8192x128 .bf16 := V m c main_v10
/-- and the normalised first argument (window 1's array). -/
abbrev parr (c : Dev nD) : FVec Ideal S8192x128 .bf16 := V m c main_v11
/-- Their blocks at point t. -/
abbrev ablk (c : Dev nD) (t : Fin cfg0.N) : FVec Ideal S1024x128 .bf16 := iblk m c 0 t
abbrev pblk (c : Dev nD) (t : Fin cfg0.N) : FVec Ideal S1024x128 .bf16 := iblk m c 1 t

/-- Window 0's block at point t is run t / 8 of `a`'s rows. -/
theorem ablk_apply (c : Dev nD) (t : Fin cfg0.N) (r : Fin 1024) (k : Fin 128) :
    ablk m c t (ix2 r k) = aarr m c (ix2 (Tiles.pos (Tiles.tileRow (tile t)) r) k) := by
  unfold ablk iblk
  rw [View.read_apply]
  show V m c main_v10 _ = V m c main_v10 _
  refine congrArg (V m c main_v10) (funext fun a => Fin.ext ?_)
  match a with
  | ⟨0, _⟩ =>
    show win0_0.index t 0 * 1024 + 1 * r.val = t.val / 8 * 1024 + r.val
    rw [(index0 t).1]; omega
  | ⟨1, _⟩ =>
    show win0_0.index t 1 * 128 + 1 * k.val = k.val
    rw [(index0 t).2]; omega

/-- Window 1's block at point t is run t % 8 of `p`'s rows. -/
theorem pblk_apply (c : Dev nD) (t : Fin cfg0.N) (r : Fin 1024) (k : Fin 128) :
    pblk m c t (ix2 r k) = parr m c (ix2 (Tiles.pos (Tiles.tileCol (tile t)) r) k) := by
  unfold pblk iblk
  rw [View.read_apply]
  show V m c main_v11 _ = V m c main_v11 _
  refine congrArg (V m c main_v11) (funext fun a => Fin.ext ?_)
  match a with
  | ⟨0, _⟩ =>
    show win0_1.index t 0 * 1024 + 1 * r.val = t.val % 8 * 1024 + r.val
    rw [(index1 t).1]; omega
  | ⟨1, _⟩ =>
    show win0_1.index t 1 * 128 + 1 * k.val = k.val
    rw [(index1 t).2]; omega

/-! ## What a point adds, and the accumulator after each point -/

/-- The specification's sum of the loss over tile s. -/
def tileOf (c : Dev nD) (s : Fin 64) : EReal :=
  Tiles.tileSum (Loss.lossAt (aarr m c) (parr m c)) (Tiles.tileRow s) (Tiles.tileCol s)

/-- The same for a number (0 past the grid). -/
def tileN (c : Dev nD) (s : ℕ) : EReal := if h : s < 64 then tileOf m c ⟨s, h⟩ else 0

/-- The accumulator after point n. -/
def accN (c : Dev nD) (n : ℕ) : EReal := Loss.zero + ∑ s ∈ Finset.range (n + 1), tileN m c s

theorem accN_succ (c : Dev nD) (n : ℕ) : accN m c (n + 1) = accN m c n + tileN m c (n + 1) := by
  unfold accN
  rw [Finset.sum_range_succ _ (n + 1), add_assoc]

theorem tileN_of_lt (c : Dev nD) (t : Fin cfg0.N) : tileN m c t.val = tileOf m c (tile t) := by
  unfold tileN
  rw [dif_pos (lt_of_lt_of_eq t.isLt N_0)]
  rfl

/-- The value the body stores at point t, over an accumulator holding `xs`: `xs` plus tile t's sum. -/
theorem point_value (c : Dev nD) (t : Fin cfg0.N) (xs : FVec Ideal S1x1 .f32) :
    k0_pay2 (F := Ideal) (grid0.coords t) (ablk m c t) (pblk m c t) xs = fun y => xs y + tileN m c t.val := by
  rw [Tile.pay2_apply, tileN_of_lt]
  funext y
  refine congrArg (xs y + ·) ?_
  exact Tile.tile_sum (grid0.coords t) (Tiles.tileRow (tile t)) (Tiles.tileCol (tile t)) (coords_val t).1 (coords_val t).2
    (aarr m c) (parr m c) (ablk m c t) (pblk m c t) (ablk_apply m c t) (pblk_apply m c t)

/-- THE ACCUMULATION: after point n the accumulator holds 0 plus the sums of the tiles up to n. -/
theorem scratch_eq (c : Dev nD) : ∀ (n : ℕ) (h : n < cfg0.N), (outsAt0 m c n h).2 = fun _ => accN m c n
  | 0, h => by
    have h0 : (⟨0, h⟩ : Fin cfg0.N).val % 64 = 0 := rfl
    have h1 : ¬(⟨0, h⟩ : Fin cfg0.N).val % 64 = 63 := by show ¬(0 : ℕ) % 64 = 63; decide
    rw [outsAt0_A m c ⟨0, h⟩ h0 h1]
    dsimp only
    refine (Acc.scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _)
      ((hcond0_0 ⟨0, h⟩).mpr h0) (fun hh => h1 ((hcond0_1 ⟨0, h⟩).mp hh)) (ablk m c ⟨0, h⟩) (pblk m c ⟨0, h⟩)).trans ?_
    refine (point_value m c ⟨0, h⟩ _).trans ?_
    funext y
    show Loss.zero + tileN m c 0 = accN m c 0
    unfold accN
    rw [Finset.sum_range_one]
  | n + 1, h => by
    have hN : n + 1 < 64 := lt_of_lt_of_eq h N_0
    have h0 : ¬(⟨n + 1, h⟩ : Fin cfg0.N).val % 64 = 0 := by dsimp only; omega
    have ih := scratch_eq c n (Nat.lt_of_succ_lt h)
    by_cases h1 : (⟨n + 1, h⟩ : Fin cfg0.N).val % 64 = 63
    · rw [outsAt0_C m c ⟨n + 1, h⟩ h0 h1]
      dsimp only
      refine (Acc.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
        (fun hh => h0 ((hcond0_0 ⟨n + 1, h⟩).mp hh)) ((hcond0_1 ⟨n + 1, h⟩).mpr h1) (ablk m c ⟨n + 1, h⟩) (pblk m c ⟨n + 1, h⟩)
        (outsAt0 m c n (Nat.lt_of_succ_lt h)).2).trans ?_
      rw [ih]
      refine (point_value m c ⟨n + 1, h⟩ _).trans ?_
      funext y
      exact (accN_succ m c n).symm
    · rw [outsAt0_B m c ⟨n + 1, h⟩ h0 h1]
      dsimp only
      refine (Acc.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
        (fun hh => h0 ((hcond0_0 ⟨n + 1, h⟩).mp hh)) (fun hh => h1 ((hcond0_1 ⟨n + 1, h⟩).mp hh)) (ablk m c ⟨n + 1, h⟩) (pblk m c ⟨n + 1, h⟩)
        (outsAt0 m c n (Nat.lt_of_succ_lt h)).2).trans ?_
      rw [ih]
      refine (point_value m c ⟨n + 1, h⟩ _).trans ?_
      funext y
      exact (accN_succ m c n).symm

/-- The last point of the grid. -/
def last : Fin cfg0.N := ⟨63, by rw [show cfg0.N = 64 from N_0]; decide⟩

/-- At the last point the output's block receives the accumulator's final value. -/
theorem out_last (c : Dev nD) : (outsAt0 m c (last).val (last).isLt).1 = fun _ => accN m c 63 := by
  have h0 : ¬(last).val % 64 = 0 := by decide
  have h1 : (last).val % 64 = 63 := rfl
  rw [outsAt0_C m c last h0 h1]
  dsimp only
  refine (Acc.out_C (F := Ideal) c (grid0.coords last) (ms0_0 last) (hs0_0 last) (ms0_1 last) (hs0_1 last) (ms0_2 last) (hs0_2 last) scM0_0 (Memref.isWhole_whole _)
    (fun hh => h0 ((hcond0_0 last).mp hh)) ((hcond0_1 last).mpr h1) (ablk m c last) (pblk m c last)
    (outsAt0 m c 62 (by rw [show cfg0.N = 64 from N_0]; decide)).2).trans ?_
  rw [scratch_eq m c 62 _]
  refine (point_value m c last _).trans ?_
  funext y
  exact (accN_succ m c 62).symm

/-! ## The write-back, and the host operations after the region -/

/-- All 64 tiles: the accumulator's final value is 0 plus the total of the loss over all pairs (the tile law). -/
theorem accN_total (c : Dev nD) : accN m c 63 = Loss.zero + Loss.total (aarr m c) (parr m c) := by
  show Loss.zero + ∑ s ∈ Finset.range 64, tileN m c s = _
  rw [← Loss.sum_tiles (aarr m c) (parr m c)]
  refine congrArg (Loss.zero + ·) ?_
  rw [Finset.sum_range fun s => tileN m c s]
  refine Finset.sum_congr rfl fun t _ => ?_
  unfold tileN
  rw [dif_pos t.isLt]
  rfl

/-- The result array after the run: its one entry is the accumulator's final value. -/
abbrev result (c : Dev nD) : Buf (Elt Ideal) ((c : Thread nD τ).loc main_v12) := fun _ => accN m c 63

/-- The one write-back, at the last point, writes it. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  obtain rfl : t = last := Fin.ext h63
  show (cfg0.win 2).cut (grid0.coords last) ((dats m 0 c).after 2 last) = _
  rw [after0_2, out_last]
  rfl

/-- So the result array ends holding it: the last point's block is the whole 1 × 1 array. -/
theorem final (c : Dev nD) : (dats m 0 c).arrAt 2 cfg0.N = result m c :=
  (dats m 0 c).arrAt_eq_of_cover 2 (result m c) (flushed_eq m c) fun i =>
    ⟨last, (flush0_2 last).mpr rfl, by
      show i ∈ ((View.whole main_v12).slice (win0_2.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index last 0 * win0_2.size 0 ≤ (i 0 : Nat) ∧ (i 0 : Nat) < win0_2.index last 0 * win0_2.size 0 + win0_2.xsize (grid0.coords last) 0
        rw [show win0_2.index last 0 * win0_2.size 0 = 0 from by decide +kernel, show win0_2.xsize (grid0.coords last) 0 = 1 from by decide +kernel]
        omega
      | ⟨1, _⟩ =>
        show win0_2.index last 1 * win0_2.size 1 ≤ (i 1 : Nat) ∧ (i 1 : Nat) < win0_2.index last 1 * win0_2.size 1 + win0_2.xsize (grid0.coords last) 1
        rw [show win0_2.index last 1 * win0_2.size 1 = 0 from by decide +kernel, show win0_2.xsize (grid0.coords last) 1 = 1 from by decide +kernel]
        omega⟩

/-- The host's reshape and division by 2^26 of that entry: the mean. -/
theorem tail_eq (c : Dev nD) :
    (Pipeline.afterTail₀ cfgs (dats m) 0 (V0 m) [hostOps1] c main_v14 : FVec Ideal S_ .f32)
      = fun _ => Loss.mean (aarr m c) (parr m c) := by
  unfold Pipeline.afterTail₀
  show StableHlo.after hostOps1 _ (Proc.devRef .tc main_v14) = _
  after_results
  have hw : Pipeline.withArrays (cfgs 0).spec c (V0 m c) (fun w => (dats m 0 c).arrAt w (cfgs 0).N) (Proc.devRef .tc main_v12)
      = result m c := (Pipeline.withArrays_arr spec0 launch0.win.arr_inj c _ _ 2).trans (final m c)
  rw [hw]
  funext i
  show Ideal.div (accN m c 63) Loss.count = Loss.mean (aarr m c) (parr m c)
  rw [accN_total]
  rfl

/-! ## The two arrays the region finds are the row-normalised arguments -/

/-- Each row divided by the larger of its Euclidean norm and the float pattern of 1e-8 (as the host computes it). -/
def normRows {F : FTy → Type} [FloatOps F] (x : FVec F S8192x128 .f32) : FVec F S8192x128 .f32 :=
  Host.divf x (broadcastInDim S8192x128 ![0, 1] bcast_S8192x1_S8192x128_0_1
    (maximumf
      (Host.sqrt (broadcastInDim S8192x1 ![0] bcast_S8192_S8192x1_0
        (Host.reduceAdd (mulf x x) (constant S_ .f32 0x00000000#32) reducesTo_S8192x128_S8192_d1 h_S_)))
      (broadcastInDim S8192x1 ![] bcast_S_S8192x1 (constant S_ .f32 0x322BCC77#32))))

theorem aarr_eq (c : Dev nD) :
    aarr m c = truncf .bf16 (normRows (F := Ideal) (m ((c : Thread nD τ).loc main_arg1))) bitsLt_bf16_f32 := by
  show (V m c main_v10 : FVec Ideal S8192x128 .bf16) = _
  dsimp only [V, V0]
  simp only [hostOps0, hostOps0_1, hostOps0_2, hostOps0_3, List.flatten_cons, List.flatten_nil, List.append_nil,
    List.cons_append, List.nil_append]
  after_results
  rfl

theorem parr_eq (c : Dev nD) :
    parr m c = truncf .bf16 (normRows (F := Ideal) (m ((c : Thread nD τ).loc main_arg0))) bitsLt_bf16_f32 := by
  show (V m c main_v11 : FVec Ideal S8192x128 .bf16) = _
  dsimp only [V, V0]
  simp only [hostOps0, hostOps0_1, hostOps0_2, hostOps0_3, List.flatten_cons, List.flatten_nil, List.append_nil,
    List.cons_append, List.nil_append]
  after_results
  rfl

/-! ## The run -/

/-- Every weakly fair execution of the idealized kernel's program ends with its result at the mean of the loss of the
    two normalised arrays, the arguments unchanged. -/
theorem run : θ_run defs (onTc (τ := τ) (main (F := Ideal))) ⟨m, fun _ => 0, ρ⟩ fun r => ∀ c : Dev nD,
      r.2.mem ((c.tc : Thread nD τ).loc main_v14) = (fun _ => Loss.mean (aarr m c) (parr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v14 (Pipeline.mem_restRefs_of main_v14 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Value

end
-- ==== Proof.RefValue.lean ====
/-
  The reference computes the specification's mean of the two row-normalised arrays.

  Read one operation at a time: the product `%4 · transpose(%9)` at (R, C) is row R of `%4` (the normalised second
  argument) against row C of `%9` (the normalised first argument); the diagonal test compares the row counter (plus
  the word 0) with the column counter; the select, the subtraction from 1 and the maximum with 0 are entry by entry;
  the sum over both axes is the initial value plus the sum over every pair; the last operation divides by 2^26.
-/
import proofs.«134980_j16544214024588_1_alg».proof.Proof.Gen.ReferenceIdeal.Read
import proofs.«134980_j16544214024588_1_alg».proof.Proof.Loss

noncomputable section

open Idealize.ShloMosaic Idealize.ShloMosaic.ValueIdx

namespace Cert.ReferenceIdeal.RefValue

open Cert.ReferenceIdeal Cert.ReferenceIdeal.Gen Cert.ReferenceIdeal.Read

/-- The reference's product at (R, C) is the specification's `cos`. -/
theorem ref_cos (x0 x1 : (⟨S8192x128, .f32⟩ : BufTy).Contents (Elt Ideal)) (R C : Fin 8192) :
    val_main_v11 (F := Ideal) x0 x1 (ix2 R C)
      = Loss.cosAt (val_main_v4 (F := Ideal) x1) (val_main_v9 (F := Ideal) x0) R C := by
  rw [val_main_v11_apply]
  unfold Loss.cosAt
  refine Finset.sum_congr rfl fun k _ => ?_
  rw [val_main_v10_apply]
  have e1 : lidx_main_v11 (ix2 R C) k = ix2 R k :=
    funext fun a => Fin.ext (by match a with | ⟨0, _⟩ => rfl | ⟨1, _⟩ => rfl)
  have e2 : idx_main_v10 (ridx_main_v11 (ix2 R C) k) = ix2 C k :=
    funext fun a => Fin.ext (by match a with | ⟨0, _⟩ => rfl | ⟨1, _⟩ => rfl)
  rw [e1, e2]

/-- The reference's selected entry at (R, C) is the specification's loss. -/
theorem ref_loss (x0 x1 : (⟨S8192x128, .f32⟩ : BufTy).Contents (Elt Ideal)) (R C : Fin 8192) :
    val_main_v21 (F := Ideal) x0 x1 (ix2 R C)
      = Loss.lossAt (val_main_v4 (F := Ideal) x1) (val_main_v9 (F := Ideal) x0) R C := by
  rw [val_main_v21_apply, val_main_v16_apply, val_main_v15_apply, val_main_v12_apply, val_main_v14_apply,
    val_main_c_apply, val_main_v13_apply, val_main_v18_apply, val_main_v17_apply, val_main_cst_1_apply,
    val_main_v20_apply, val_main_v19_apply, val_main_cst_2_apply, ref_cos]
  unfold Loss.lossAt
  exact Loss.select_iff (Loss.refMask R C) _ _

/-- The reference's sum is the initial value plus the specification's total. -/
theorem ref_total (x0 x1 : (⟨S8192x128, .f32⟩ : BufTy).Contents (Elt Ideal)) (i : S_.Idx) :
    val_main_v22 (F := Ideal) x0 x1 i
      = Loss.zero + Loss.total (val_main_v4 (F := Ideal) x1) (val_main_v9 (F := Ideal) x0) := by
  rw [val_main_v22_apply, val_main_cst_3_apply]
  refine congrArg (Loss.zero + ·) ?_
  unfold Loss.total
  refine (sum_idx2 (val_main_v21 (F := Ideal) x0 x1)).trans ?_
  exact Finset.sum_congr rfl fun R _ => Finset.sum_congr rfl fun C _ => ref_loss x0 x1 R C

/-- THE REFERENCE: its result is the specification's mean. -/
theorem ref_mean (x0 x1 : (⟨S8192x128, .f32⟩ : BufTy).Contents (Elt Ideal)) :
    val_main_v23 (F := Ideal) x0 x1
      = fun _ => Loss.mean (val_main_v4 (F := Ideal) x1) (val_main_v9 (F := Ideal) x0) := by
  funext i
  rw [val_main_v23_apply, ref_total, val_main_cst_4_apply]
  rfl

end Cert.ReferenceIdeal.RefValue

end
-- ==== Proof.lean ====
/-
  The mean pairwise cosine loss of 8192 anchor rows against 8192 positive rows, tiled, against the same mean computed
  at once.

  Both programs first divide every row of each input by the larger of the row's Euclidean norm and the float pattern
  of 1e-8, with the same host operations; call the results `a` (from the second argument) and `p` (from the first).
  (The kernel's program then narrows them to bf16, which at the ideal instance changes nothing.) With

      cos R C  = Σ_k a[R, k] · p[C, k],     loss R C = 1 − cos R C  if R = C,   max (cos R C) 0  otherwise,

  the reference's result is (0 + Σ_R Σ_C loss R C) / 2^26. The kernel visits the 64 tiles of 1024 × 1024 pairs in
  row-major order; at tile (i, j) it forms the tile of products on the blocks i of `a` and j of `p`, recognises the
  diagonal by comparing i·1024 + r with j·1024 + c, sums the tile's losses and adds the sum to a one-element
  accumulator that the first tile resets to 0; the last tile copies the accumulator out, and the host divides by 2^26.
  So its result is (0 + Σ_tiles Σ_{pairs of the tile} loss) / 2^26, and the two are equal because the tiles partition
  the pairs and addition of extended reals is commutative and associative. No finiteness of the inputs is used: the
  two sides are the same extended-real expression regrouped.

  The three frames are the generated ones (the reference's is its generated run with the result dropped); the ideal
  pass rewrote nothing, so the kernel's idealization is its own text.
-/
import proofs.«134980_j16544214024588_1_alg».proof.Defs
import proofs.«134980_j16544214024588_1_alg».proof.Proof.Gen.Kernel
import proofs.«134980_j16544214024588_1_alg».proof.Proof.Gen.Kernel.Frame
import proofs.«134980_j16544214024588_1_alg».proof.Proof.Gen.KernelIdeal
import proofs.«134980_j16544214024588_1_alg».proof.Proof.Gen.KernelIdeal.Frame
import proofs.«134980_j16544214024588_1_alg».proof.Proof.Gen.ReferenceIdeal
import proofs.«134980_j16544214024588_1_alg».proof.Proof.Gen.ReferenceIdeal.Run
import proofs.«134980_j16544214024588_1_alg».proof.Proof.Gen.ReferenceIdeal.Read
import proofs.«134980_j16544214024588_1_alg».proof.Proof.Gen.Pre_finite_inputs
import proofs.«134980_j16544214024588_1_alg».proof.Proof.KernelValue
import proofs.«134980_j16544214024588_1_alg».proof.Proof.RefValue
import Idealize.ShloMosaic.Adequacy
import Idealize.ShloMosaic.Init

noncomputable section

namespace Cert.Proof

open Idealize.ShloMosaic Idealize.SL.Sem

/-- The kernel's program and the reference normalise the rows by the same operations: the array the kernel's first
    window reads (the normalised second argument, narrowed) is the reference's `%4`, -/
theorem rows_a (x : (⟨Cert.KernelIdeal.S8192x128, .f32⟩ : BufTy).Contents (Elt Ideal)) :
    (truncf .bf16 (Cert.KernelIdeal.Value.normRows (F := Ideal) x) Cert.KernelIdeal.Gen.bitsLt_bf16_f32 : Cert.Loss.Rows)
      = Cert.ReferenceIdeal.Read.val_main_v4 (F := Ideal) x := rfl

/-- and the array its second window reads (the normalised first argument, narrowed) is the reference's `%9`. -/
theorem rows_p (x : (⟨Cert.KernelIdeal.S8192x128, .f32⟩ : BufTy).Contents (Elt Ideal)) :
    (truncf .bf16 (Cert.KernelIdeal.Value.normRows (F := Ideal) x) Cert.KernelIdeal.Gen.bitsLt_bf16_f32 : Cert.Loss.Rows)
      = Cert.ReferenceIdeal.Read.val_main_v9 (F := Ideal) x := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the mean of the loss of the same two normalised arrays. -/
theorem algebraic : Cert.algebraic_KernelIdeal_ReferenceIdeal := by
  intro m ρ m' ρ' _ hagree
  refine ⟨fun c => fun _ => Cert.Loss.mean (Cert.KernelIdeal.Value.aarr m c) (Cert.KernelIdeal.Value.parr m c),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))).trans ?_
  show _ = fun _ => Cert.Loss.mean (Cert.KernelIdeal.Value.aarr m c) (Cert.KernelIdeal.Value.parr m c)
  rw [Cert.ReferenceIdeal.RefValue.ref_mean, (hagree c).1, (hagree c).2, Cert.KernelIdeal.Value.aarr_eq,
    Cert.KernelIdeal.Value.parr_eq]
  exact congrArg₂ (fun a p => fun _ => Cert.Loss.mean a p) (rows_a _).symm (rows_p _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
